-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .hbm, ⟨5, _⟩ => ⟨S8192x4096, .f32⟩
  | .hbm, ⟨6, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S4096, .i1⟩
  | .hbm, ⟨15, _⟩ => ⟨S_, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S8192x4096, .f32⟩
  | .hbm, ⟨23, _⟩ => ⟨S8192x4096, .i1⟩
  | .hbm, ⟨24, _⟩ => ⟨S_, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_cst_4 : Ref sig .tc := ⟨.hbm, 16, rfl⟩
abbrev main_call1_v0 : Ref sig .tc := ⟨.hbm, 17, rfl⟩
abbrev main_call1_v1 : Ref sig .tc := ⟨.hbm, 18, rfl⟩
abbrev main_v6 : Ref sig .tc := ⟨.hbm, 19, rfl⟩
abbrev main_v7 : Ref sig .tc := ⟨.hbm, 20, rfl⟩
abbrev main_cst_5 : Ref sig .tc := ⟨.hbm, 21, rfl⟩
abbrev main_v8 : Ref sig .tc := ⟨.hbm, 22, rfl⟩
abbrev main_v9 : Ref sig .tc := ⟨.hbm, 23, rfl⟩
abbrev main_cst_6 : Ref sig .tc := ⟨.hbm, 24, rfl⟩
abbrev main_cst_7 : Ref sig .tc := ⟨.hbm, 25, rfl⟩
abbrev main_call2_v0 : Ref sig .tc := ⟨.hbm, 26, rfl⟩
abbrev main_call2_v1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What each control case of the kernel body leaves behind, as values.

  The body keeps a running block in a scratch buffer. At the first step of a contraction (case A) it stores a
  zero block and then the update of that zero block; at a middle step (case B) and at the last step (case C) it
  stores the update of what the step before left; and at the last step it also stores, into the output block,
  the scratch it has just updated plus the broadcast bias signs. Read back, the stores are the body's pure
  payloads of the blocks it loaded.
-/
import proofs.«113114_j77232101917001_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle step: the scratch holding `acc` ends at the update of `acc` by the two loaded blocks. -/
theorem scratch_B (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 x1 : Vec F S1024x1024 .f32) (x2 : Vec F S1x1024 .f32) (acc : Vec F S1024x1024 .f32) :
    sout0_B_0 c i a3 h3 a4 h4 a5 h5 a6 h6 a7 h7 hc0 hc1 x0 x1 x2 acc = k0_pay2 x0 x1 acc := by
  unfold sout0_B_0
  rw [View.read_writes_eq_canon _ _ _ (scover0_B_0 c i a3 h3 a4 h4 a5 h5 a6 h6 a7 h7 hc0 hc1 x0 x1 x2 acc)]
  unfold kernelRun0_B
  dsimp only
  sl_unfold_words
  rw [View.canon_unit_zero hz]
  simp only [View.readAt_eq_ld, h3.read_unread, h4.read_unread, h7.read_unread, View.ld_unit_zero (S := S1024x1024) hz]

/-- The last step leaves the same update in the scratch. -/
theorem scratch_C (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x1024 .f32) (x2 : Vec F S1x1024 .f32) (acc : Vec F S1024x1024 .f32) :
    sout0_C_0 c i a3 h3 a4 h4 a5 h5 a6 h6 a7 h7 hc0 hc1 x0 x1 x2 acc = k0_pay2 x0 x1 acc := by
  unfold sout0_C_0
  rw [View.read_writes_eq_canon _ _ _ (scover0_C_0 c i a3 h3 a4 h4 a5 h5 a6 h6 a7 h7 hc0 hc1 x0 x1 x2 acc)]
  unfold kernelRun0_C
  dsimp only
  sl_unfold_words
  rw [View.canon_unit_zero hz]
  simp only [View.readAt_eq_ld, h3.read_unread, h4.read_unread, h7.read_unread, View.ld_unit_zero (S := S1024x1024) hz]

/-- The last step's output block: the updated scratch plus the bias signs. -/
theorem out_C (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x1024 .f32) (x2 : Vec F S1x1024 .f32) (acc : Vec F S1024x1024 .f32) :
    out0_C_3 c i a3 h3 a4 h4 a5 h5 a6 h6 a7 h7 hc0 hc1 x0 x1 x2 acc = k0_pay3 x2 (k0_pay2 x0 x1 acc) := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero hz]
  simp only [View.readAt_eq_ld, h3.read_unread, h4.read_unread, h5.read_unread, h7.read_unread,
    View.ld_unit_zero (S := S1024x1024) hz, View.ld_unit_zero (S := S1x1024) hz, View.readCov_unit_zero (S := S1024x1024) _ hz]

/-- The first step: the scratch is zeroed, then updated. -/
theorem scratch_A (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 x1 : Vec F S1024x1024 .f32) (x2 : Vec F S1x1024 .f32) :
    sout0_A_0 c i a3 h3 a4 h4 a5 h5 a6 h6 a7 h7 hc0 hc1 x0 x1 x2 = k0_pay2 x0 x1 k0_pay1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

end Cert.KernelIdeal.Pieces

end
-- ==== Proof.Sgn.lean ====
/-
  The sign binarisation and the splitting of a contraction into four blocks.

  Every operand of this kernel is first sent to ±1: an entry `a` becomes `1` when `a ≥ 0` and `-1` otherwise
  (`sgn`). The kernel contracts the 4096-long axis in four consecutive blocks of 1024, accumulating into a
  zeroed scratch; the reference contracts it at once. Over a commutative monoid the two groupings of the sum
  agree (`sum_four_blocks`): no finiteness is needed, only associativity of `+`.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.BinDense

open Idealize.ShloMosaic

/-- `a ↦ if a ≥ 0 then 1 else -1` on the extended reals, spelled with the three f32 words both programs print
    (`+0.0`, `1.0`, `-1.0`), none of which is ever evaluated. -/
def sgn (a : Ideal .f32) : Ideal .f32 :=
  Scalar.select (FloatOps.cmpf .oge a (Ideal.ofBits .f32 0x00000000#32))
    (Ideal.ofBits .f32 0x3F800000#32) (Ideal.ofBits .f32 0xBF800000#32)

/-- Position `b * 1024 + k` of the contracted axis: entry `k` of its block `b`. -/
abbrev kix (b : Fin 4) (k : Fin 1024) : Fin 4096 := ⟨b.val * 1024 + k.val, by have := b.isLt; have := k.isLt; omega⟩

/-- A sum over the 4096 positions is the sum of its four consecutive blocks of 1024. -/
theorem sum_four_blocks {M : Type*} [AddCommMonoid M] (f : Fin 4096 → M) :
    ∑ k : Fin 4096, f k
      = ∑ k : Fin 1024, f (kix 0 k) + ∑ k : Fin 1024, f (kix 1 k) + ∑ k : Fin 1024, f (kix 2 k) + ∑ k : Fin 1024, f (kix 3 k) := by
  have e : ∑ k : Fin 4096, f k = ∑ b : Fin 4, ∑ k : Fin 1024, f (kix b k) := by
    rw [← Equiv.sum_comp (finProdFinEquiv (m := 4) (n := 1024)) f, Fintype.sum_prod_type]
    refine Finset.sum_congr rfl fun b _ => Finset.sum_congr rfl fun k _ => congrArg f (Fin.ext ?_)
    show k.val + 1024 * b.val = b.val * 1024 + k.val
    omega
  rw [e, Fin.sum_univ_four]

end Cert.BinDense

end
-- ==== Proof.Payload.lean ====
/-
  The body's three payloads read at an index, over the extended reals.

  `k0_pay1` is the zero block. `k0_pay2 x w acc` adds to `acc`, at row `p` and column `q`, the contraction over
  the block's 1024 positions of the sign of `x[p, k]` with the sign of `w[k, q]` (the rounding to bf16 on the
  way into the product is the identity here, and the product into a zero accumulator is a plain sum).
  `k0_pay3 b acc` adds to `acc` the sign of the bias row at the column.
-/
import proofs.«113114_j77232101917001_1_alg».proof.Proof.Gen.KernelIdeal.Skeleton
import proofs.«113114_j77232101917001_1_alg».proof.Proof.Sgn
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.Payload

open Cert.KernelIdeal Cert.KernelIdeal.Gen Cert.BinDense

/-- The reset block is zero everywhere. -/
theorem pay1_apply (j : S1024x1024.Idx) : k0_pay1 (F := Ideal) j = Ideal.ofBits .f32 0x00000000#32 := rfl

theorem lhs_pay2_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_pay2_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_pay2_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_pay2_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of two blocks into a zero accumulator, at row `p` and column `q`: the sum over the contracted
    position `k` of the left block at `(p, k)` times the right block at `(k, q)`. -/
theorem blockProduct_apply (l r : FVec Ideal S1024x1024 .bf16) (p q : Fin 1024) :
    FloatOps.matmul dot_S1024x1024_S1024x1024_S1024x1024_1_0_0_1_n_n none l r (constant S1024x1024 .f32 0x00000000#32) (ix2 p q)
      = ∑ k : Fin 1024, l (ix2 p k) * r (ix2 k q) := by
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_pay2_0 _ _
    | ⟨1, _⟩ => exact (lhs_pay2_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_pay2_0 _ _).trans hk
    | ⟨1, _⟩ => exact rhs_pay2_1 _ _)
  rw [el, er]

/-- The update: `acc` plus the contraction of the two blocks' signs. -/
theorem pay2_apply (x w acc : Vec Ideal S1024x1024 .f32) (p q : Fin 1024) :
    k0_pay2 (F := Ideal) x w acc (ix2 p q) = acc (ix2 p q) + ∑ k : Fin 1024, sgn (x (ix2 p k)) * sgn (w (ix2 k q)) := by
  unfold k0_pay2
  refine (congrFun (shapeCast_self _ _) (ix2 p q)).trans ?_
  refine congrArg (acc (ix2 p q) + ·) ?_
  exact blockProduct_apply _ _ p q

/-- The last step: `acc` plus the sign of the bias row at the column. -/
theorem pay3_apply (b : Vec Ideal S1x1024 .f32) (acc : Vec Ideal S1024x1024 .f32) (p q : Fin 1024) :
    k0_pay3 (F := Ideal) b acc (ix2 p q) = acc (ix2 p q) + sgn (b (ix2 0 q)) := by
  unfold k0_pay3
  refine congrArg (acc (ix2 p q) + ·) ?_
  refine (broadcastTo_apply _ broadcasts_S1x1024_S1024x1024 (ix2 p q) (ix2 0 q) (fun a => ?_)).trans ?_
  · match a with
    | ⟨0, _⟩ => rfl
    | ⟨1, _⟩ => rfl
  · exact congrArg sgn (congrFun (shapeCast_self b _) (ix2 0 q))

end Cert.KernelIdeal.Payload

end
-- ==== Proof.Blocks.lean ====
/-
  Where each window's block sits in its array.

  The grid has 8 × 4 × 4 points; point `t = 16·i + 4·j + s` works on row block `i`, column block `j` and
  contraction step `s`. At that point the input block is rows `1024·i …` and columns `1024·s …` of `x`, the
  weight block rows `1024·s …` and columns `1024·j …` of `w`, the bias block columns `1024·j …` of the bias
  (reshaped to one row before the call), and the output block rows `1024·i …`, columns `1024·j …`.
-/
import proofs.«113114_j77232101917001_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The printed index maps, decided once over the 128 grid points. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The three input blocks at a point, at their literal types. -/
abbrev xblk (c : Dev nD) (t : Fin cfg0.N) : Vec F S1024x1024 .f32 := iblk m c 0 t
abbrev wblk (c : Dev nD) (t : Fin cfg0.N) : Vec F S1024x1024 .f32 := iblk m c 1 t
abbrev bblk (c : Dev nD) (t : Fin cfg0.N) : Vec F S1x1024 .f32 := iblk m c 2 t

/-- The input block at `(p, k)` is `x` at row `1024·(t / 16) + p`, column `1024·(t % 4) + k`. -/
theorem xblk_apply (c : Dev nD) (t : Fin cfg0.N) (p k : Fin 1024) (r : Fin 8192) (kk : Fin 4096)
    (hr : r.val = t.val / 16 * 1024 + p.val) (hk : kk.val = t.val % 4 * 1024 + k.val) :
    xblk m c t (ix2 p k) = m ((c : Thread nD τ).loc main_arg0) (ix2 r kk) := by
  refine Eq.trans ?_ (congrFun (V_main_arg0 m c) (ix2 r kk))
  show (iblk m c 0 t) (ix2 p k) = _
  unfold iblk
  rw [View.read_apply]
  show V m c main_arg0 (((cfg0.win 0).blk t).view.emb (ix2 p k)) = V m c main_arg0 (ix2 r kk)
  refine congrArg (V m c main_arg0) (funext fun a => Fin.ext ?_)
  obtain ⟨e0, e1, -⟩ := idx_facts t
  match a with
  | ⟨0, _⟩ => show win0_0.index t (0 : Fin 2) * 1024 + 1 * p.val = r.val; omega
  | ⟨1, _⟩ => show win0_0.index t (1 : Fin 2) * 1024 + 1 * k.val = kk.val; omega

/-- The weight block at `(k, q)` is `w` at row `1024·(t % 4) + k`, column `1024·(t / 4 % 4) + q`. -/
theorem wblk_apply (c : Dev nD) (t : Fin cfg0.N) (k q : Fin 1024) (kk cc : Fin 4096)
    (hk : kk.val = t.val % 4 * 1024 + k.val) (hc : cc.val = t.val / 4 % 4 * 1024 + q.val) :
    wblk m c t (ix2 k q) = m ((c : Thread nD τ).loc main_arg1) (ix2 kk cc) := by
  refine Eq.trans ?_ (congrFun (V_main_arg1 m c) (ix2 kk cc))
  show (iblk m c 1 t) (ix2 k q) = _
  unfold iblk
  rw [View.read_apply]
  show V m c main_arg1 (((cfg0.win 1).blk t).view.emb (ix2 k q)) = V m c main_arg1 (ix2 kk cc)
  refine congrArg (V m c main_arg1) (funext fun a => Fin.ext ?_)
  obtain ⟨-, -, e2, e3, -⟩ := idx_facts t
  match a with
  | ⟨0, _⟩ => show win0_1.index t (0 : Fin 2) * 1024 + 1 * k.val = kk.val; omega
  | ⟨1, _⟩ => show win0_1.index t (1 : Fin 2) * 1024 + 1 * q.val = cc.val; omega

/-- Before the call the bias is laid out as one row: entry `(0, c)` of that row is entry `c` of the bias. -/
theorem biasRow_eq (c : Dev nD) :
    (V m c main_v0 : S1x4096.Idx → Elt F .f32) = shapeCast S1x4096 (m ((c : Thread nD τ).loc main_arg2)) shapeCasts_S4096_S1x4096 := by
  show StableHlo.after hostOps0 (fun b => m (c, b)) (Proc.devRef .tc main_v0) = _
  after_results
  rfl

/-- The bias block at `(0, q)` is the bias at `1024·(t / 4 % 4) + q`. -/
theorem bblk_apply (c : Dev nD) (t : Fin cfg0.N) (q : Fin 1024) (cc : Fin 4096)
    (hc : cc.val = t.val / 4 % 4 * 1024 + q.val) :
    bblk m c t (ix2 0 q) = m ((c : Thread nD τ).loc main_arg2) (ix1 cc) := by
  show (iblk m c 2 t) (ix2 0 q) = _
  unfold iblk
  rw [View.read_apply]
  show V m c main_v0 (((cfg0.win 2).blk t).view.emb (ix2 0 q)) = _
  have e : ((cfg0.win 2).blk t).view.emb (ix2 0 q) = (ix2 (0 : Fin 1) cc : S1x4096.Idx) := by
    funext a; apply Fin.ext
    obtain ⟨-, -, -, -, e4, e5, -⟩ := idx_facts t
    match a with
    | ⟨0, _⟩ => show win0_2.index t (0 : Fin 2) * 1 + 1 * 0 = 0; omega
    | ⟨1, _⟩ => show win0_2.index t (1 : Fin 2) * 1024 + 1 * q.val = cc.val; omega
  rw [e, biasRow_eq]
  exact shapeCast_a_1a_apply _ _ 0 cc

end Cert.KernelIdeal.Blocks

end
-- ==== Proof.Spec.lean ====
/-
  The function both programs compute, index by index, over the extended reals.

  With every operand binarised by `sgn`, the layer's output at row `r` and column `c` is
      ∑ k, sgn x[r, k] · sgn w[k, c]  +  sgn b[c],
  and the value returned is that output with the input subtracted and added back: `(out - x) + x`.
  Both programs end with literally the same subtraction and addition, so nothing is cancelled here and
  no finiteness of `x` is used.
-/
import proofs.«113114_j77232101917001_1_alg».proof.Proof.Sgn

noncomputable section

namespace Cert.BinDense

open Idealize.ShloMosaic Idealize.ShloMosaic.ValueIdx

abbrev SX : Shape := ⟨2, ![8192, 4096]⟩
abbrev SW : Shape := ⟨2, ![4096, 4096]⟩
abbrev SB : Shape := ⟨1, ![4096]⟩

/-- The binarised dense layer: entry `(r, c)` is the contraction of the sign rows of `x` with the sign columns of
    `w`, plus the sign of the bias at `c`. -/
def dense (x : SX.Idx → EReal) (w : SW.Idx → EReal) (b : SB.Idx → EReal) : SX.Idx → EReal :=
  fun j => (∑ k : Fin 4096, sgn (x (ix2 (j 0) k)) * sgn (w (ix2 k (j 1)))) + sgn (b (ix1 (j 1)))

/-- What is returned: the layer's output minus the input, plus the input. -/
def result (x : SX.Idx → EReal) (w : SW.Idx → EReal) (b : SB.Idx → EReal) : SX.Idx → EReal :=
  fun j => (dense x w b j - x j) + x j

end Cert.BinDense

end
-- ==== Proof.Accum.lean ====
/-
  The output block a last contraction step writes, as a value.

  Over one output block the grid makes four consecutive steps `s = 0, 1, 2, 3` (points `t - 3, …, t` with
  `t % 4 = 3`). The scratch starts at zero and each step adds the contraction of the signs over its own 1024
  positions `1024·s …`; the last step adds the bias sign and stores. So the stored entry is
      (((0 + D₀) + D₁) + D₂) + D₃ + sgn b[c],
  with `D_s` the partial contraction over block `s`, and the four partial contractions make up the whole one.
-/
import proofs.«113114_j77232101917001_1_alg».proof.Proof.Pieces
import proofs.«113114_j77232101917001_1_alg».proof.Proof.Payload
import proofs.«113114_j77232101917001_1_alg».proof.Proof.Blocks
import proofs.«113114_j77232101917001_1_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Blocks Cert.BinDense

section AnyF
variable {F : FTy → Type} [FloatOps F]
variable (m : (ℓ : Loc nD τ sig) → Buf (Elt F) ℓ)

/-- After the first step of a contraction the scratch is the update of the zero block. -/
theorem scratch_first (c : Dev nD) (t : Fin cfg0.N) (h0 : t.val % 4 = 0) :
    (outsAt0 m c t.val t.isLt).2 = k0_pay2 (xblk m c t) (wblk m c t) k0_pay1 := by
  have h1 : ¬ t.val % 4 = 3 := by omega
  rw [outsAt0_A m c t h0 h1]
  dsimp only
  exact Pieces.scratch_A c (grid0.coords t) (ms0_0 t) (hs0_0 t) (ms0_1 t) (hs0_1 t) (ms0_2 t) (hs0_2 t) (ms0_3 t) (hs0_3 t)
    scM0_0 (Memref.isWhole_whole _) ((hcond0_0 t).mpr h0) (fun h => h1 ((hcond0_1 t).mp h)) (iblk m c 0 t) (iblk m c 1 t) (iblk m c 2 t)

/-- After any later step it is the update of what the step before left. -/
theorem scratch_next (c : Dev nD) (t : Fin cfg0.N) (h0 : ¬ t.val % 4 = 0) :
    (outsAt0 m c t.val t.isLt).2
      = k0_pay2 (xblk m c t) (wblk m c t) (outsAt0 m c (t.val - 1) (Nat.lt_of_le_of_lt (Nat.sub_le _ _) t.isLt)).2 := by
  by_cases h1 : t.val % 4 = 3
  · rw [outsAt0_C m c t h0 h1]
    dsimp only
    exact Pieces.scratch_C c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2
  · rw [outsAt0_B m c t h0 h1]
    dsimp only
    exact Pieces.scratch_B c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (fun h => h1 ((hcond0_1 t).mp h)) (iblk m c 0 t) (iblk m c 1 t) (iblk m c 2 t)
      (outsAt0 m c (t.val - 1) (Nat.lt_of_le_of_lt (Nat.sub_le _ _) t.isLt)).2

/-- The last step's output block: the bias signs added to the scratch it has just updated. -/
theorem out_last (c : Dev nD) (t : Fin cfg0.N) (h1 : t.val % 4 = 3) :
    (outsAt0 m c t.val t.isLt).1
      = k0_pay3 (bblk m c t) (k0_pay2 (xblk m c t) (wblk m c t) (outsAt0 m c (t.val - 1) (Nat.lt_of_le_of_lt (Nat.sub_le _ _) t.isLt)).2) := by
  have h0 : ¬ t.val % 4 = 0 := by omega
  rw [outsAt0_C m c t h0 h1]
  dsimp only
  exact Pieces.out_C c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2

end AnyF

variable (m : (ℓ : Loc nD τ sig) → Buf (Elt Ideal) ℓ)

/-- The partial contraction over block `b` of the contracted axis, for row `r` and column `cc`. -/
def blockDot (X : SX.Idx → EReal) (W : SW.Idx → EReal) (r : Fin 8192) (cc : Fin 4096) (b : Fin 4) : EReal :=
  ∑ k : Fin 1024, sgn (X (ix2 r (kix b k))) * sgn (W (ix2 (kix b k) cc))

/-- One update at point `t`, at an entry: what was there plus the partial contraction over block `t % 4`. -/
theorem update_apply (c : Dev nD) (t : Fin cfg0.N) (acc : Vec Ideal S1024x1024 .f32) (p q : Fin 1024) (r : Fin 8192) (cc : Fin 4096)
    (hr : r.val = t.val / 16 * 1024 + p.val) (hc : cc.val = t.val / 4 % 4 * 1024 + q.val) (b : Fin 4) (hb : b.val = t.val % 4) :
    k0_pay2 (F := Ideal) (xblk m c t) (wblk m c t) acc (ix2 p q)
      = acc (ix2 p q) + blockDot (m ((c : Thread nD τ).loc main_arg0)) (m ((c : Thread nD τ).loc main_arg1)) r cc b := by
  refine (Payload.pay2_apply (xblk m c t) (wblk m c t) acc p q).trans ?_
  refine congrArg (acc (ix2 p q) + ·) (Finset.sum_congr rfl fun k _ => ?_)
  have hk : (kix b k).val = t.val % 4 * 1024 + k.val := by show b.val * 1024 + k.val = _; rw [hb]
  rw [xblk_apply m c t p k r (kix b k) hr hk, wblk_apply m c t k q (kix b k) cc hk hc]

/-- THE OUTPUT BLOCK at a last step: entry `(p, q)` is the layer's output at row `1024·(t / 16) + p` and column
    `1024·(t / 4 % 4) + q`. -/
theorem out_last_apply (c : Dev nD) (t : Fin cfg0.N) (h1 : t.val % 4 = 3) (p q : Fin 1024) (r : Fin 8192) (cc : Fin 4096)
    (hr : r.val = t.val / 16 * 1024 + p.val) (hc : cc.val = t.val / 4 % 4 * 1024 + q.val) :
    (outsAt0 m c t.val t.isLt).1 (ix2 p q)
      = dense (m ((c : Thread nD τ).loc main_arg0)) (m ((c : Thread nD τ).loc main_arg1)) (m ((c : Thread nD τ).loc main_arg2)) (ix2 r cc) := by
  have hN : t.val < 128 := lt_of_lt_of_eq t.isLt (show cfg0.N = 128 from N_0)
  have hlt : ∀ d, t.val - d < cfg0.N := fun d => Nat.lt_of_le_of_lt (Nat.sub_le _ _) t.isLt
  let t2 : Fin cfg0.N := ⟨t.val - 1, hlt 1⟩
  let t1 : Fin cfg0.N := ⟨t.val - 2, hlt 2⟩
  let t0 : Fin cfg0.N := ⟨t.val - 3, hlt 3⟩
  have v2 : t2.val = t.val - 1 := rfl
  have v1 : t1.val = t.val - 2 := rfl
  have v0 : t0.val = t.val - 3 := rfl
  -- the four steps
  have s3 := out_last m c t h1
  have s2 : (outsAt0 m c t2.val t2.isLt).2 = _ := scratch_next m c t2 (by rw [v2]; omega)
  have s1 : (outsAt0 m c t1.val t1.isLt).2 = _ := scratch_next m c t1 (by rw [v1]; omega)
  have s0 : (outsAt0 m c t0.val t0.isLt).2 = _ := scratch_first m c t0 (by rw [v0]; omega)
  have a2 : outsAt0 m c (t.val - 1) (hlt 1) = outsAt0 m c t2.val t2.isLt := rfl
  have a1 : outsAt0 m c (t2.val - 1) (Nat.lt_of_le_of_lt (Nat.sub_le _ _) t2.isLt) = outsAt0 m c t1.val t1.isLt := by
    congr 1
  have a0 : outsAt0 m c (t1.val - 1) (Nat.lt_of_le_of_lt (Nat.sub_le _ _) t1.isLt) = outsAt0 m c t0.val t0.isLt := by
    congr 1
  rw [s3, a2, s2, a1, s1, a0, s0]
  refine (Payload.pay3_apply (bblk m c t) _ p q).trans ?_
  rw [bblk_apply m c t q cc hc]
  rw [update_apply m c t _ p q r cc hr hc 3 (by rw [h1]; rfl)]
  rw [update_apply m c t2 _ p q r cc (by rw [v2]; omega) (by rw [v2]; omega) 2 (by rw [v2]; show 2 = _; omega)]
  rw [update_apply m c t1 _ p q r cc (by rw [v1]; omega) (by rw [v1]; omega) 1 (by rw [v1]; show 1 = _; omega)]
  rw [update_apply m c t0 _ p q r cc (by rw [v0]; omega) (by rw [v0]; omega) 0 (by rw [v0]; show 0 = _; omega)]
  rw [Payload.pay1_apply, Ideal.ofBits_zero_f32, zero_add]
  unfold dense blockDot
  rw [sum_four_blocks]

end Cert.KernelIdeal.Accum

end
-- ==== Proof.Final.lean ====
/-
  From the output blocks to the whole result.

  Only the last step of each contraction writes its output block back, and those 32 blocks tile the
  [8192, 4096] array: the entry `(r, c)` lies in the block of the point `16·(r / 1024) + 4·(c / 1024) + 3`.
  So after the call the array holds the layer's output everywhere, and the two host operations that
  follow subtract the input and add it back.
-/
import proofs.«113114_j77232101917001_1_alg».proof.Proof.Accum
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.BinDense

variable (m : (ℓ : Loc nD τ sig) → Buf (Elt Ideal) ℓ) (ρ : Dev nD → PrngReg)

/-- The layer's output of the three argument arrays as launched, on core `c`. -/
abbrev out (c : Dev nD) : SX.Idx → EReal :=
  dense (m ((c : Thread nD τ).loc main_arg0)) (m ((c : Thread nD τ).loc main_arg1)) (m ((c : Thread nD τ).loc main_arg2))

/-- What a last step writes back is its block of the layer's output. -/
theorem flushed_eq (c : Dev nD) (t : Fin cfg0.N) (hf : (cfg0.win 3).flush t = true) :
    (dats m 0 c).flushed 3 t = ((cfg0.win 3).blk t).view.read (Elt Ideal) (out m c) := by
  have h1 : t.val % 4 = 3 := (flush0_3 t).mp hf
  have hN : t.val < 128 := lt_of_lt_of_eq t.isLt (show cfg0.N = 128 from N_0)
  show (cfg0.win 3).cut (grid0.coords t) ((dats m 0 c).after 3 t) = _
  rw [after0_3]
  refine funext fun (j : S1024x1024.Idx) => ?_
  show (outsAt0 m c t.val t.isLt).1 j = out m c (((cfg0.win 3).blk t).view.emb j)
  obtain ⟨p, q, rfl⟩ : ∃ (p q : Fin 1024), j = ix2 p q := ⟨j 0, j 1, eq_ix2 j⟩
  have e : ((cfg0.win 3).blk t).view.emb (ix2 p q)
      = (ix2 (⟨t.val / 16 * 1024 + p.val, by omega⟩ : Fin 8192) (⟨t.val / 4 % 4 * 1024 + q.val, by omega⟩ : Fin 4096) : SX.Idx) := by
    funext a; apply Fin.ext
    obtain ⟨-, -, -, -, -, -, e6, e7⟩ := idx_facts t
    match a with
    | ⟨0, _⟩ => show win0_3.index t (0 : Fin 2) * 1024 + 1 * p.val = t.val / 16 * 1024 + p.val; omega
    | ⟨1, _⟩ => show win0_3.index t (1 : Fin 2) * 1024 + 1 * q.val = t.val / 4 % 4 * 1024 + q.val; omega
  rw [e]
  exact Accum.out_last_apply m c t h1 p q _ _ rfl rfl

/-- An entry of the array lies in point `t`'s output block iff each coordinate lies in the block's range. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every entry is in the block some last step writes back. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  let t : Fin cfg0.N := ⟨16 * ((i 0).val / 1024) + 4 * ((i 1).val / 1024) + 3, by omega⟩
  have tv : t.val = 16 * ((i 0).val / 1024) + 4 * ((i 1).val / 1024) + 3 := rfl
  refine ⟨t, (flush0_3 t).mpr (by omega), ?_⟩
  rw [mem_blk]
  obtain ⟨-, -, -, -, -, -, e6, e7⟩ := idx_facts t
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- After the call the output array is the layer's output. -/
theorem final (c : Dev nD) : (dats m 0 c).arrAt 3 cfg0.N = out m c :=
  (dats m 0 c).arrAt_eq_of_cover 3 (out m c) (fun t hf => flushed_eq m c t hf) cover

/-- The two host operations after the call: the output minus the input, plus the input. -/
theorem tail_eq (c : Dev nD) :
    Pipeline.afterTail₀ cfgs (dats m) 0 (V0 m) [hostOps1] c main_v3
      = result (m ((c : Thread nD τ).loc main_arg0)) (m ((c : Thread nD τ).loc main_arg1)) (m ((c : Thread nD τ).loc main_arg2)) := by
  have e1 : Pipeline.withArrays spec0 c (V0 m c) (fun w => (dats m 0 c).arrAt w cfg0.N) (Proc.devRef .tc main_v1) = out m c :=
    (Pipeline.withArrays_arr spec0 launch0.win.arr_inj c _ _ 3).trans (final m c)
  have e0 : Pipeline.withArrays spec0 c (V0 m c) (fun w => (dats m 0 c).arrAt w cfg0.N) (Proc.devRef .tc main_arg0)
      = m ((c : Thread nD τ).loc main_arg0) :=
    (Pipeline.withArrays_arr spec0 launch0.win.arr_inj c _ _ 0).trans
      (((dats m 0 c).arrAt_in 0 rfl _).trans ((A_eq m c 0).trans (V_main_arg0 m c)))
  unfold Pipeline.afterTail₀
  show StableHlo.after hostOps1 _ (Proc.devRef .tc main_v3) = _
  after_results
  rw [e1, e0]
  rfl

/-- The idealized kernel's run, read: the result is `result` of the arguments, which end unchanged. -/
theorem run : θ_run defs (onTc (τ := τ) (main (F := Ideal))) ⟨m, fun _ => 0, ρ⟩ fun r => ∀ c : Dev nD,
      r.2.mem ((c : Thread nD τ).loc main_v3)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Final

end
-- ==== Proof.RefValue.lean ====
/-
  The reference computes the same function.

  Read one operation at a time, the reference binarises the three arguments with the same comparison and
  the same three words, contracts the whole 4096-long axis at once, adds the bias sign broadcast along the
  rows, subtracts the input and adds it back.
-/
import proofs.«113114_j77232101917001_1_alg».proof.Proof.Gen.ReferenceIdeal.Read
import proofs.«113114_j77232101917001_1_alg».proof.Proof.Spec

noncomputable section

open Idealize.ShloMosaic Idealize.ShloMosaic.TcCoe Idealize.ShloMosaic.ValueIdx

namespace Cert.ReferenceIdeal.RefValue

open Cert.ReferenceIdeal Cert.ReferenceIdeal.Read Cert.BinDense

/-- The binarised input, weights and bias at an entry are `sgn` of the entry. -/
theorem sgnX (x0 : SX.Idx → EReal) (j : SX.Idx) : val_main_v11 (F := Ideal) x0 j = sgn (x0 j) := rfl
theorem sgnW (x1 : SW.Idx → EReal) (j : SW.Idx) : val_main_v3 (F := Ideal) x1 j = sgn (x1 j) := rfl
theorem sgnB (x2 : SB.Idx → EReal) (j : SB.Idx) : val_main_v7 (F := Ideal) x2 j = sgn (x2 j) := rfl

theorem lidx_eq (i : SX.Idx) (k : Fin 4096) : lidx_main_v12 i k = ix2 (i 0) k :=
  funext fun a => Fin.ext (by match a with | ⟨0, _⟩ => rfl | ⟨1, _⟩ => rfl)
theorem ridx_eq (i : SX.Idx) (k : Fin 4096) : ridx_main_v12 i k = ix2 k (i 1) :=
  funext fun a => Fin.ext (by match a with | ⟨0, _⟩ => rfl | ⟨1, _⟩ => rfl)
theorem bidx_eq (i : SX.Idx) : idx_main_v13 (idx_main_v14 i) = ix1 (i 1) :=
  funext fun a => Fin.ext (by match a with | ⟨0, _⟩ => rfl)

/-- The reference's result is `result` of its arguments. -/
theorem result_eq (x0 : SX.Idx → EReal) (x1 : SW.Idx → EReal) (x2 : SB.Idx → EReal) :
    val_main_v17 (F := Ideal) x0 x1 x2 = result x0 x1 x2 := by
  funext i
  rw [val_main_v17_apply, val_main_v16_apply, val_main_v15_apply, val_main_v12_apply, val_main_v14_apply, val_main_v13_apply]
  simp only [sgnX, sgnW, sgnB, lidx_eq, ridx_eq, bidx_eq]
  rfl

end Cert.ReferenceIdeal.RefValue

end
-- ==== Proof.lean ====
/-
  A binarised dense layer: every entry of the input `x`, the weights `w` and the bias `b` is replaced by its
  sign (`1` where the entry is `≥ 0`, `-1` elsewhere), the layer's output is `sgn x · sgn w + sgn b`, and the
  value returned is `(output - x) + x`.

  The kernel computes the product block by block: for each [1024, 1024] output block it contracts the 4096-long
  axis in four steps of 1024, accumulating into a scratch block that the first step zeroes, and the last step
  adds the bias signs and writes the block back; the subtraction and addition of `x` follow on the host. The
  reference contracts the whole axis at once. Over the extended reals the four partial sums, added in order
  to zero, are the whole sum (addition is associative and `0` is neutral), and both programs end with the same
  subtraction and addition of `x`; so the results agree entry by entry, and the precondition is never opened.

    Proof/Sgn.lean       the sign map and the splitting of a sum over 4096 positions into four blocks
    Proof/Spec.lean      the function both programs compute
    Proof/Pieces.lean    what each control case of the kernel body stores, as the body's payloads
    Proof/Payload.lean   the payloads read at an entry
    Proof/Blocks.lean    where each window's block sits in its array
    Proof/Accum.lean     the four steps over one output block, read at an entry
    Proof/Final.lean     the output blocks tile the array; the host operations after the call; the kernel's run
    Proof/RefValue.lean  the reference's run is the same function

  The three frames are the generated ones (the reference's is its generated run with the result dropped); the
  idealization rewrote nothing, so `preserves` is `True`.
-/
import proofs.«113114_j77232101917001_1_alg».proof.Defs
import proofs.«113114_j77232101917001_1_alg».proof.Proof.Gen.Kernel
import proofs.«113114_j77232101917001_1_alg».proof.Proof.Gen.Kernel.Skeleton
import proofs.«113114_j77232101917001_1_alg».proof.Proof.Gen.Kernel.Launch
import proofs.«113114_j77232101917001_1_alg».proof.Proof.Gen.Kernel.Points
import proofs.«113114_j77232101917001_1_alg».proof.Proof.Gen.Kernel.Frame
import proofs.«113114_j77232101917001_1_alg».proof.Proof.Gen.KernelIdeal
import proofs.«113114_j77232101917001_1_alg».proof.Proof.Gen.KernelIdeal.Skeleton
import proofs.«113114_j77232101917001_1_alg».proof.Proof.Gen.KernelIdeal.Launch
import proofs.«113114_j77232101917001_1_alg».proof.Proof.Gen.KernelIdeal.Points
import proofs.«113114_j77232101917001_1_alg».proof.Proof.Gen.KernelIdeal.Frame
import proofs.«113114_j77232101917001_1_alg».proof.Proof.Gen.ReferenceIdeal
import proofs.«113114_j77232101917001_1_alg».proof.Proof.Gen.Pre_finite_inputs
import proofs.«113114_j77232101917001_1_alg».proof.Proof.Gen.ReferenceIdeal.Run
import proofs.«113114_j77232101917001_1_alg».proof.Proof.Gen.ReferenceIdeal.Read
import proofs.«113114_j77232101917001_1_alg».proof.Proof.Final
import proofs.«113114_j77232101917001_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From arguments that agree, both runs end at `(sgn x · sgn w + sgn b - x) + x` of them. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
